-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x8x128 : Shape := ⟨3, ![4, 8, 128]⟩
abbrev S1x256x3 : Shape := ⟨3, ![1, 256, 3]⟩
abbrev S1x3x8192 : Shape := ⟨3, ![1, 3, 8192]⟩
abbrev S1x8x128 : Shape := ⟨3, ![1, 8, 128]⟩
abbrev S1x8192 : Shape := ⟨2, ![1, 8192]⟩
abbrev S256x3 : Shape := ⟨2, ![256, 3]⟩
abbrev S3x8192 : Shape := ⟨2, ![3, 8192]⟩
abbrev S256 : Shape := ⟨1, ![256]⟩
abbrev S256x1 : Shape := ⟨2, ![256, 1]⟩
abbrev S8192 : Shape := ⟨1, ![8192]⟩
abbrev S256x8192 : Shape := ⟨2, ![256, 8192]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S4 : Shape := ⟨1, ![4]⟩
abbrev S_ : Shape := ⟨0, ![]⟩

abbrev nBuf : Space → Nat
  | .hbm => 18
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x8x128, .f32⟩
  | .hbm, ⟨4, _⟩ => ⟨S4x8x128, .f32⟩
  | .hbm, ⟨5, _⟩ => ⟨S4x1x1, .f32⟩
  | .hbm, ⟨6, _⟩ => ⟨S4, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x1x1, .f32⟩
  | .hbm, ⟨12, _⟩ => ⟨S4, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x3x8192, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v40 : BitVec 1 := Scalar.cmpi .eq arg1 c31_i32
  let v41 : BitVec 32 := Scalar.extui v40
  let c0_i32_22 : BitVec 32 := 0#32
  let v42 : BitVec 1 := Scalar.cmpi .ne v41 c0_i32_22
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4x8192x3_S4x3x8192_0_2_1 : S4x8192x3.Transposes [0, 2, 1] S4x3x8192
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  reduces_S256x3_S256 : S256x3.Reduces [1] S256
  shapeCasts_S256_S256x1 : S256.ShapeCasts S256x1
  reduces_S3x8192_S8192 : S3x8192.Reduces [0] S8192
  shapeCasts_S8192_S1x8192 : S8192.ShapeCasts S1x8192
  bitsLt_bf16_f32 : FTy.bits .bf16 < FTy.bits .f32
  broadcasts_S256x1_S256x8192 : S256x1.Broadcasts S256x8192
  broadcasts_S1x8192_S256x8192 : S1x8192.Broadcasts S256x8192
  reduces_S256x8192_S256 : S256x8192.Reduces [1] S256
  reduces_S256x1_S1 : S256x1.Reduces [0] S1
  shapeCasts_S1_S1x1 : S1.ShapeCasts S1x1
  reduces_S256x8192_S8192 : S256x8192.Reduces [0] S8192
  inb_S1x8x128_S1x8x128_0_0_0 : ∀ a, (![0, 0, 0] : Fin 3 → Nat) a + S1x8x128.size a ≤ S1x8x128.size a
  h_S1x8x128 : 0 < S1x8x128.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  shapeCasts_S1x8x128_S1x8x128 : S1x8x128.ShapeCasts S1x8x128
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  reduces_S1x8192_S1 : S1x8192.Reduces [1] S1
  slices_S4x8x128_S4x1x1_0_0_0 : S4x8x128.Slices ![0, 0, 0] S4x1x1
  shapeCasts_S4x1x1_S4 : S4x1x1.ShapeCasts S4
  reducesTo_S4_S_d0 : S4.ReducesTo [0] S_
  h_S_ : 0 < S_.numel
  dot_S256x3_S3x8192_S256x8192_1_0_0_1_n_n_wf : DotDims.WF S256x3 S3x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S4x8192x3.size a
  hwx0_0 : ∀ i : grid0.Coords, EltTy.bits .f32 = 32 ∨ (Rect.block (s := S4x8192x3) S1x256x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S4x3x8192.size a
  hwx0_1 : ∀ i : grid0.Coords, EltTy.bits .f32 = 32 ∨ (Rect.block (s := S4x3x8192) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S4x8x128.size a
  hwx0_2 : ∀ i : grid0.Coords, EltTy.bits .f32 = 32 ∨ (Rect.block (s := S4x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S4x8x128.size a
  hwx0_3 : ∀ i : grid0.Coords, EltTy.bits .f32 = 32 ∨ (Rect.block (s := S4x8x128) S1x8x128.size (cc0_transform_3 i) (hinb0_3 i)).WholeWords (EltTy.packing .f32)

variable [Facts₀]

def dot_S256x3_S3x8192_S256x8192_1_0_0_1_n_n : DotDims S256x3 S3x8192 S256x8192 where
  lhsContracting := [1]
  rhsContracting := [0]
  lhsNonContracting := [0]
  rhsNonContracting := [1]
  lhsBatch := []
  rhsBatch := []
  wf := dot_S256x3_S3x8192_S256x8192_1_0_0_1_n_n_wf

abbrev win0_0 : Pipeline.Window sig grid0 :=
  Pipeline.Window.ofSpec (Memref.whole main_arg1) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d1 : S4x8192x8192.ReducesTo [1] S4x8192
  reducesTo_S4x8192_S_d0_1 : S4x8192.ReducesTo [0, 1] S_
  reducesTo_S4x8192x8192_S4x8192_d2 : S4x8192x8192.ReducesTo [2] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.ChamferSpec.lean ====
/-
  The Chamfer loss between two clouds of 8192 points in three dimensions, four batches, written over the extended
  reals with no program in sight: the squared distance in its expanded form |g|² + |p|² − 2 g·p, the distance from
  each point to the nearest point of the other cloud as an infimum, the two sums of those, and the quotient by
  the number of points. Beside it, the same two sums as they are accumulated tile by tile — 32 tiles of 256
  ground-truth points per batch, walked in order by a counter n = 32·b + k — by a running sum and a running
  minimum that restart at the first tile of each batch.
-/
import Idealize.ShloMosaic.PureOps.Ideal
import Idealize.ShloMosaic.PureOps.Ideal.Laws

noncomputable section

namespace Cert.Chamfer

open Idealize.ShloMosaic

/-- The literal 2.0 that multiplies the inner product. -/
abbrev two : EReal := Ideal.ofBits .f32 0x40000000#32
/-- The literal +∞ every minimum starts from. -/
abbrev pinf : EReal := Ideal.ofBits .f32 0x7F800000#32
/-- The literal 0.0 every sum starts from. -/
abbrev zero : EReal := Ideal.ofBits .f32 0x00000000#32
/-- The literal 32768.0 = 4 · 8192, the number of nearest distances averaged. -/
abbrev cnt : EReal := Ideal.ofBits .f32 0x47000000#32

/-- A batch of point clouds: batch, point, coordinate. -/
abbrev Pts := Fin 4 → Fin 8192 → Fin 3 → EReal

/-- |g_n|² + |p_m|² − 2 ⟨g_n, p_m⟩ in batch `b`: the squared distance, expanded. -/
def dist (g p : Pts) (b : Fin 4) (n m : Fin 8192) : EReal :=
  ((∑ d : Fin 3, g b n d * g b n d) + (∑ d : Fin 3, p b m d * p b m d)) - two * (∑ d : Fin 3, g b n d * p b m d)

/-- Over every predicted point, the squared distance to its nearest ground-truth point, summed. -/
def toGt (g p : Pts) : EReal := ∑ b : Fin 4, ∑ m : Fin 8192, ⨅ n : Fin 8192, dist g p b n m
/-- Over every ground-truth point, the squared distance to its nearest predicted point, summed. -/
def toPred (g p : Pts) : EReal := ∑ b : Fin 4, ∑ n : Fin 8192, ⨅ m : Fin 8192, dist g p b n m

/-- The two means, added. The quotient is the host's division, left unopened: both programs divide the same
    sums by the same literal. -/
def loss (g p : Pts) : EReal :=
  FloatOps.addf (F := Ideal) (φ := .f32) (FloatOps.hostDivf (F := Ideal) (φ := .f32) (toGt g p) cnt)
    (FloatOps.hostDivf (F := Ideal) (φ := .f32) (toPred g p) cnt)

/-! ## The same sums, tile by tile -/

/-- The batch the counter `n` is in. -/
def bOf (n : ℕ) : Fin 4 := ⟨n / 32 % 4, Nat.mod_lt _ (by decide)⟩
/-- Row `r` of the tile the counter `n` is at: ground-truth point 256·(n mod 32) + r. -/
def rowOf (n : ℕ) (r : Fin 256) : Fin 8192 := ⟨256 * (n % 32) + r.val, by have := r.isLt; have := Nat.mod_lt n (show 32 > 0 by decide); omega⟩

/-- One tile's share of `toPred`: its 256 ground-truth points' nearest distances, summed. -/
def rowPart (g p : Pts) (n : ℕ) : EReal := ∑ r : Fin 256, ⨅ m : Fin 8192, dist g p (bOf n) (rowOf n r) m
/-- One tile's candidate for predicted point `m`: the nearest of the tile's 256 ground-truth points. -/
def colPart (g p : Pts) (n : ℕ) (m : Fin 8192) : EReal := ⨅ r : Fin 256, dist g p (bOf n) (rowOf n r) m

/-- The running sum after tile `n`: it restarts from 0 at the first tile of a batch. -/
def accSum (g p : Pts) : ℕ → EReal
  | 0 => zero + rowPart g p 0
  | n + 1 => if (n + 1) % 32 = 0 then zero + rowPart g p (n + 1) else accSum g p n + rowPart g p (n + 1)

/-- The running minimum for predicted point `m` after tile `n`: it restarts from +∞ at the first tile of a batch. -/
def accMin (g p : Pts) (m : Fin 8192) : ℕ → EReal
  | 0 => min pinf (colPart g p 0 m)
  | n + 1 => if (n + 1) % 32 = 0 then min pinf (colPart g p (n + 1) m) else min (accMin g p m n) (colPart g p (n + 1) m)

/-- The pattern 0x7F800000 is +∞, the top of the extended reals. -/
theorem pinf_eq_top : pinf = ⊤ := by simp [pinf, Ideal.ofBits, Ideal.ieee]

/-- A minimum folded from +∞ over a finite family is the family's infimum. -/
theorem fold_min_pinf {ι : Type*} [Fintype ι] (f : ι → EReal) : Finset.univ.fold min pinf f = ⨅ i, f i := by
  refine eq_of_forall_le_iff fun c => ?_
  rw [Finset.le_fold_min, le_iInf_iff, pinf_eq_top]
  exact ⟨fun h i => h.2 i (Finset.mem_univ i), fun h => ⟨le_top, fun i _ => h i⟩⟩

end Cert.Chamfer

end
-- ==== Proof.ChamferTiles.lean ====
/-
  The tile-by-tile accumulators of ChamferSpec.lean in closed form. After the last tile of batch `b` (counter
  32·b + 31) the running sum is the sum over all 8192 ground-truth points of the batch, and the running minimum
  is the infimum over them: a sum over Fin 8192 is the sum over 32 tiles of the sums over their 256 rows, an
  infimum likewise, addition on the extended reals is a commutative monoid, and min is the lattice's infimum,
  with +∞ its top.
-/
import proofs.«143020_j28200755266074_1_alg».proof.Proof.ChamferSpec

noncomputable section

namespace Cert.Chamfer

open Idealize.ShloMosaic

/-- The pattern 0x00000000 is the number 0. -/
private theorem zero_eq : zero = 0 := Ideal.ofBits_zero_f32

/-- The running sum's recursion, read uniformly at every counter. -/
private theorem accSum_unfold (g p : Pts) (n : ℕ) :
    accSum g p n = if n % 32 = 0 then zero + rowPart g p n else accSum g p (n - 1) + rowPart g p n := by
  cases n with
  | zero => simp [accSum]
  | succ n => rw [accSum]; simp

/-- The running minimum's recursion, read uniformly at every counter. -/
private theorem accMin_unfold (g p : Pts) (m : Fin 8192) (n : ℕ) :
    accMin g p m n = if n % 32 = 0 then min pinf (colPart g p n m)
      else min (accMin g p m (n - 1)) (colPart g p n m) := by
  cases n with
  | zero => simp [accMin]
  | succ n => rw [accMin]; simp

/-- Within a batch the running sum after tile `k` is the sum of the tiles' shares up to `k`. -/
private theorem accSum_tile (g p : Pts) (b k : ℕ) (hk : k < 32) :
    accSum g p (32 * b + k) = ∑ j ∈ Finset.range (k + 1), rowPart g p (32 * b + j) := by
  induction k with
  | zero =>
    rw [accSum_unfold, if_pos (by omega), zero_eq, zero_add]
    simp
  | succ k ih =>
    rw [accSum_unfold, if_neg (by omega), show 32 * b + (k + 1) - 1 = 32 * b + k by omega, ih (by omega),
      Finset.sum_range_succ (fun j => rowPart g p (32 * b + j)) (k + 1)]

/-- Within a batch the running minimum after tile `k` is the greatest lower bound of the tiles' candidates up to `k`. -/
private theorem le_accMin_tile (g p : Pts) (m : Fin 8192) (b k : ℕ) (hk : k < 32) (c : EReal) :
    c ≤ accMin g p m (32 * b + k) ↔ ∀ j, j < k + 1 → c ≤ colPart g p (32 * b + j) m := by
  induction k with
  | zero =>
    rw [accMin_unfold, if_pos (by omega), pinf_eq_top, le_min_iff]
    constructor
    · intro h j hj
      have : j = 0 := by omega
      subst this
      exact h.2
    · intro h
      exact ⟨le_top, h 0 (by omega)⟩
  | succ k ih =>
    rw [accMin_unfold, if_neg (by omega), show 32 * b + (k + 1) - 1 = 32 * b + k by omega, le_min_iff, ih (by omega)]
    constructor
    · intro h j hj
      rcases Nat.lt_succ_iff_lt_or_eq.mp hj with h1 | h1
      · exact h.1 j h1
      · subst h1; exact h.2
    · intro h
      exact ⟨fun j hj => h j (by omega), h (k + 1) (by omega)⟩

/-- The batch of the counter 32·b + j. -/
private theorem bOf_tile (b : Fin 4) (j : ℕ) (hj : j < 32) : bOf (32 * b.val + j) = b := by
  apply Fin.ext
  have := b.isLt
  simp only [bOf]
  omega

/-- Row `r` of tile `j` is ground-truth point 256·j + r. -/
private theorem rowOf_tile (b j : ℕ) (hj : j < 32) (r : Fin 256) :
    (rowOf (32 * b + j) r).val = 256 * j + r.val := by
  simp only [rowOf]
  have : (32 * b + j) % 32 = j := by omega
  rw [this]

/-- A sum over 8192 points is the sum over 32 tiles of the sums over their 256 rows. -/
private theorem sum_tiles (F : Fin 8192 → EReal) :
    ∑ n : Fin 8192, F n
      = ∑ j : Fin 32, ∑ r : Fin 256, F ⟨256 * j.val + r.val, by have := j.isLt; have := r.isLt; omega⟩ := by
  rw [← Fintype.sum_prod_type']
  refine (Fintype.sum_equiv (finProdFinEquiv : Fin 32 × Fin 256 ≃ Fin 8192) _ _ ?_).symm
  rintro ⟨j, r⟩
  congr 1
  apply Fin.ext
  simp [finProdFinEquiv]
  omega

/-- After the last tile of batch `b` the running sum is the whole batch's sum of nearest distances. -/
theorem accSum_last (g p : Pts) (b : Fin 4) :
    accSum g p (32 * b.val + 31) = ∑ n : Fin 8192, ⨅ m : Fin 8192, dist g p b n m := by
  rw [accSum_tile g p b.val 31 (by omega), Finset.sum_range (fun j => rowPart g p (32 * b.val + j)),
    sum_tiles]
  refine Finset.sum_congr rfl fun j _ => ?_
  unfold rowPart
  rw [bOf_tile b j.val j.isLt]
  refine Finset.sum_congr rfl fun r _ => ?_
  have h : rowOf (32 * b.val + j.val) r = ⟨256 * j.val + r.val, by have := j.isLt; have := r.isLt; omega⟩ :=
    Fin.ext (rowOf_tile b.val j.val j.isLt r)
  rw [h]

/-- After the last tile of batch `b` the running minimum for predicted point `m` is the infimum over the whole batch. -/
theorem accMin_last (g p : Pts) (m : Fin 8192) (b : Fin 4) :
    accMin g p m (32 * b.val + 31) = ⨅ n : Fin 8192, dist g p b n m := by
  refine eq_of_forall_le_iff fun c => ?_
  rw [le_accMin_tile g p m b.val 31 (by omega), le_iInf_iff]
  constructor
  · intro h n
    have hn := n.isLt
    have hj : n.val / 256 < 32 := by omega
    have h1 := h (n.val / 256) (by omega)
    unfold colPart at h1
    rw [le_iInf_iff, bOf_tile b _ hj] at h1
    have h2 := h1 ⟨n.val % 256, Nat.mod_lt _ (by decide)⟩
    have h3 : rowOf (32 * b.val + n.val / 256) ⟨n.val % 256, Nat.mod_lt _ (by decide)⟩ = n := by
      apply Fin.ext
      rw [rowOf_tile b.val _ hj]
      simp only
      omega
    rwa [h3] at h2
  · intro h j hj
    have hj' : j < 32 := by omega
    unfold colPart
    rw [le_iInf_iff, bOf_tile b j hj']
    intro r
    exact h _

end Cert.Chamfer

end
-- ==== Proof.TilePayload.lean ====
/-
  The kernel body's arithmetic, read at an index over the extended reals. One grid point holds a tile of 256
  ground-truth points (a [1,256,3] block) and the whole cloud of 8192 predicted points of the same batch,
  transposed (a [1,3,8192] block). The body forms the [256,8192] tile of squared distances |g_r|² + |p_m|² − 2⟨g_r,p_m⟩
  (the inner product by the matrix unit, whose narrowing of its operands is the identity on the extended reals),
  the tile's column minima (for each predicted point the nearest of the 256), and the sum of its row minima (for each
  of the 256 the nearest predicted point); the running minimum is taken entry by entry, and at a batch's last tile
  the running minima are summed.
-/
import proofs.«143020_j28200755266074_1_alg».proof.Proof.ChamferSpec
import proofs.«143020_j28200755266074_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen Cert.Chamfer

/-! ## Layout operations the tile meets, read at an index given by coordinates -/

/-- An `[a]` vector cast to the column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array broadcast to `[a, b, c]` reads its one entry everywhere. -/
private theorem broadcastTo_111_abc_apply {α : Type} {a b c : ℕ} (v : (⟨3, ![1, 1, 1]⟩ : Shape).Idx → α)
    (h : (⟨3, ![1, 1, 1]⟩ : Shape).Broadcasts ⟨3, ![a, b, c]⟩) (p : Fin a) (q : Fin b) (r : Fin c) :
    broadcastTo ⟨3, ![a, b, c]⟩ v h (ix3 p q r) = v (ix3 (0 : Fin 1) (0 : Fin 1) (0 : Fin 1)) := by
  refine broadcastTo_apply v h (ix3 p q r) (ix3 (0 : Fin 1) (0 : Fin 1) (0 : Fin 1)) fun ax => ?_
  match ax with
  | ⟨0, _⟩ => rfl
  | ⟨1, _⟩ => rfl
  | ⟨2, _⟩ => rfl

/-- The one entry of a `[1]` vector carried through `[1, 1]` and `[1, 1, 1]` to every entry of a `[1, 8, 128]` block. -/
private theorem splat_1_apply {α : Type} (w : S1.Idx → α) (h1 : S1.ShapeCasts S1x1) (h2 : S1x1.ShapeCasts S1x1x1)
    (h3 : S1x1x1.ShapeCasts S1x1x1) (h4 : S1x1x1.Broadcasts S1x8x128) (j : S1x8x128.Idx) :
    broadcastTo S1x8x128 (shapeCast S1x1x1 (shapeCast S1x1x1 (shapeCast S1x1 w h1) h2) h3) h4 j = w (ix1 (0 : Fin 1)) := by
  obtain ⟨p, q, r, rfl⟩ : ∃ (p : Fin 1) (q : Fin 8) (r : Fin 128), j = ix3 p q r := ⟨j 0, j 1, j 2, eq_ix3 j⟩
  rw [broadcastTo_111_abc_apply, shapeCast_self, shapeCast_ab_1ab_apply, shapeCast_a_1a_apply]

/-! ## The reductions over one axis, read at an index given by coordinates -/

/-- The sum of a `[256, 3]` array over its columns, at row `r`. -/
private theorem sum_S256x3_apply (src : FVec Ideal S256x3 .f32) (h : S256x3.Reduces [1] S256) (hφ : FKind.Formats .f32)
    (hacc : (0x00000000#32 : BitVec 32) = FKind.add.neutral .f32 hφ) (r : Fin 256) :
    multiReduction (F := Ideal) .add [1] S256 src 0x00000000#32 h hφ hacc (ix1 r) = ∑ d : Fin 3, src (ix2 r d) := by
  refine (Ideal.multiReduction_add_single src 0x00000000#32 h hφ hacc (ix1 r)).trans ?_
  refine Finset.sum_congr rfl fun k _ => congrArg src ?_
  funext a; apply Fin.ext
  match a with
  | ⟨0, _⟩ => rfl
  | ⟨1, _⟩ => rfl

/-- The sum of a `[3, 8192]` array over its rows, at column `m`. -/
private theorem sum_S3x8192_apply (src : FVec Ideal S3x8192 .f32) (h : S3x8192.Reduces [0] S8192) (hφ : FKind.Formats .f32)
    (hacc : (0x00000000#32 : BitVec 32) = FKind.add.neutral .f32 hφ) (m : Fin 8192) :
    multiReduction (F := Ideal) .add [0] S8192 src 0x00000000#32 h hφ hacc (ix1 m) = ∑ d : Fin 3, src (ix2 d m) := by
  refine (Ideal.multiReduction_add_single src 0x00000000#32 h hφ hacc (ix1 m)).trans ?_
  refine Finset.sum_congr rfl fun k _ => congrArg src ?_
  funext a; apply Fin.ext
  match a with
  | ⟨0, _⟩ => rfl
  | ⟨1, _⟩ => rfl

/-- The sum of a `[1, 8192]` row over its columns. -/
private theorem sum_S1x8192_apply (src : FVec Ideal S1x8192 .f32) (h : S1x8192.Reduces [1] S1) (hφ : FKind.Formats .f32)
    (hacc : (0x00000000#32 : BitVec 32) = FKind.add.neutral .f32 hφ) (u : Fin 1) :
    multiReduction (F := Ideal) .add [1] S1 src 0x00000000#32 h hφ hacc (ix1 u) = ∑ m : Fin 8192, src (ix2 (0 : Fin 1) m) := by
  refine (Ideal.multiReduction_add_single src 0x00000000#32 h hφ hacc (ix1 u)).trans ?_
  refine Finset.sum_congr rfl fun k _ => congrArg src ?_
  funext a; apply Fin.ext
  match a with
  | ⟨0, _⟩ => show u.val = 0; omega
  | ⟨1, _⟩ => rfl

/-- The sum of a `[256, 1]` column over its rows. -/
private theorem sum_S256x1_apply (src : FVec Ideal S256x1 .f32) (h : S256x1.Reduces [0] S1) (hφ : FKind.Formats .f32)
    (hacc : (0x00000000#32 : BitVec 32) = FKind.add.neutral .f32 hφ) (u : Fin 1) :
    multiReduction (F := Ideal) .add [0] S1 src 0x00000000#32 h hφ hacc (ix1 u) = ∑ r : Fin 256, src (ix2 r (0 : Fin 1)) := by
  refine (Ideal.multiReduction_add_single src 0x00000000#32 h hφ hacc (ix1 u)).trans ?_
  refine Finset.sum_congr rfl fun k _ => congrArg src ?_
  funext a; apply Fin.ext
  match a with
  | ⟨0, _⟩ => rfl
  | ⟨1, _⟩ => show u.val = 0; omega

/-- The minimum of a `[256, 8192]` array over its rows, from +∞, at column `m`: the infimum over the rows. -/
private theorem min_rows_apply (src : FVec Ideal S256x8192 .f32) (h : S256x8192.Reduces [0] S8192) (hφ : FKind.Formats .f32)
    (hacc : (0x7F800000#32 : BitVec 32) = FKind.minimumf.neutral .f32 hφ) (m : Fin 8192) :
    multiReduction (F := Ideal) .minimumf [0] S8192 src 0x7F800000#32 h hφ hacc (ix1 m) = ⨅ r : Fin 256, src (ix2 r m) := by
  rw [multiReduction_minimumf_eq_fold]
  refine (h.fold_filter_drop_single _ _ src (ix1 m)).trans ?_
  refine Eq.trans ?_ (fold_min_pinf fun r : Fin 256 => src (ix2 r m))
  refine congrArg (Finset.fold min pinf · Finset.univ) ?_
  funext k
  refine congrArg src ?_
  funext a; apply Fin.ext
  match a with
  | ⟨0, _⟩ => rfl
  | ⟨1, _⟩ => rfl

/-- The minimum of a `[256, 8192]` array over its columns, from +∞, at row `r`: the infimum over the columns. -/
private theorem min_cols_apply (src : FVec Ideal S256x8192 .f32) (h : S256x8192.Reduces [1] S256) (hφ : FKind.Formats .f32)
    (hacc : (0x7F800000#32 : BitVec 32) = FKind.minimumf.neutral .f32 hφ) (r : Fin 256) :
    multiReduction (F := Ideal) .minimumf [1] S256 src 0x7F800000#32 h hφ hacc (ix1 r) = ⨅ m : Fin 8192, src (ix2 r m) := by
  rw [multiReduction_minimumf_eq_fold]
  refine (h.fold_filter_drop_single _ _ src (ix1 r)).trans ?_
  refine Eq.trans ?_ (fold_min_pinf fun m : Fin 8192 => src (ix2 r m))
  refine congrArg (Finset.fold min pinf · Finset.univ) ?_
  funext k
  refine congrArg src ?_
  funext a; apply Fin.ext
  match a with
  | ⟨0, _⟩ => rfl
  | ⟨1, _⟩ => rfl

/-! ## The matrix product into the zero accumulator, read at an index -/

/- The two operands' indices at output index `i` and contraction index `q`, coordinate by coordinate: the left operand
   reads row `i 0` and column `q`, the right operand row `q` and column `i 1`. -/
private theorem lhs_dot_0 (i : S256x8192.Idx) (q : dot_S256x3_S3x8192_S256x8192_1_0_0_1_n_n.contr.Idx) :
    (dot_S256x3_S3x8192_S256x8192_1_0_0_1_n_n.lhsIdx i q 0).val = (i 0).val := by
  unfold DotDims.lhsIdx
  rw [dif_neg (show ¬(0 : Fin S256x3.rank) ∈ dot_S256x3_S3x8192_S256x8192_1_0_0_1_n_n.lhsBatch by decide), dif_pos (show (0 : Fin S256x3.rank) ∈ dot_S256x3_S3x8192_S256x8192_1_0_0_1_n_n.lhsNonContracting by decide)]
  rfl
private theorem lhs_dot_1 (i : S256x8192.Idx) (q : dot_S256x3_S3x8192_S256x8192_1_0_0_1_n_n.contr.Idx) :
    (dot_S256x3_S3x8192_S256x8192_1_0_0_1_n_n.lhsIdx i q 1).val = (q ⟨0, by decide⟩).val :=
  dot_S256x3_S3x8192_S256x8192_1_0_0_1_n_n.lhsIdx_val_of_single rfl i q
private theorem rhs_dot_0 (i : S256x8192.Idx) (q : dot_S256x3_S3x8192_S256x8192_1_0_0_1_n_n.contr.Idx) :
    (dot_S256x3_S3x8192_S256x8192_1_0_0_1_n_n.rhsIdx i q 0).val = (q ⟨0, by decide⟩).val :=
  dot_S256x3_S3x8192_S256x8192_1_0_0_1_n_n.rhsIdx_val_of_single rfl i q
private theorem rhs_dot_1 (i : S256x8192.Idx) (q : dot_S256x3_S3x8192_S256x8192_1_0_0_1_n_n.contr.Idx) :
    (dot_S256x3_S3x8192_S256x8192_1_0_0_1_n_n.rhsIdx i q 1).val = (i 1).val := by
  unfold DotDims.rhsIdx
  rw [dif_neg (show ¬(1 : Fin S3x8192.rank) ∈ dot_S256x3_S3x8192_S256x8192_1_0_0_1_n_n.rhsBatch by decide), dif_pos (show (1 : Fin S3x8192.rank) ∈ dot_S256x3_S3x8192_S256x8192_1_0_0_1_n_n.rhsNonContracting by decide)]
  rfl

/-- The product of a `[256, 3]` and a `[3, 8192]` matrix into the zero accumulator, at `(r, m)`: the inner product of row `r`
    and column `m`. -/
private theorem matmul_zero_apply {φ₁ φ₂ : FTy} (lhs : FVec Ideal S256x3 φ₁) (rhs : FVec Ideal S3x8192 φ₂) (r : Fin 256) (m : Fin 8192) :
    matmul dot_S256x3_S3x8192_S256x8192_1_0_0_1_n_n none lhs rhs (constant (F := Ideal) S256x8192 .f32 0x00000000#32) (ix2 r m)
      = ∑ d : Fin 3, lhs (ix2 r d) * rhs (ix2 d m) := by
  simp only [matmul]
  rw [Ideal.matmul_constant_zero_apply, ← Equiv.sum_comp (contrEquiv1 dot_S256x3_S3x8192_S256x8192_1_0_0_1_n_n 3 rfl rfl).symm]
  refine Finset.sum_congr rfl fun k _ => ?_
  have hk := contrEquiv1_symm_val dot_S256x3_S3x8192_S256x8192_1_0_0_1_n_n 3 rfl rfl k
  have el : dot_S256x3_S3x8192_S256x8192_1_0_0_1_n_n.lhsIdx (ix2 r m) ((contrEquiv1 dot_S256x3_S3x8192_S256x8192_1_0_0_1_n_n 3 rfl rfl).symm k) = ix2 r k := funext fun a => Fin.ext (by
    match a with
    | ⟨0, _⟩ => exact lhs_dot_0 _ _
    | ⟨1, _⟩ => exact (lhs_dot_1 _ _).trans hk)
  have er : dot_S256x3_S3x8192_S256x8192_1_0_0_1_n_n.rhsIdx (ix2 r m) ((contrEquiv1 dot_S256x3_S3x8192_S256x8192_1_0_0_1_n_n 3 rfl rfl).symm k) = ix2 k m := funext fun a => Fin.ext (by
    match a with
    | ⟨0, _⟩ => exact (rhs_dot_0 _ _).trans hk
    | ⟨1, _⟩ => exact rhs_dot_1 _ _)
  rw [el, er]

/-! ## The seven payloads -/

/-- The tile's entry (r, m): the expanded squared distance between row r of the ground-truth block and
    column m of the transposed predicted block. -/
theorem pay3_apply (x0 : FVec Ideal S1x256x3 .f32) (x1 : FVec Ideal S1x3x8192 .f32) (r : Fin 256) (mm : Fin 8192) :
    k0_pay3 (F := Ideal) x0 x1 (ix2 r mm)
      = ((∑ d : Fin 3, x0 (ix3 (0 : Fin 1) r d) * x0 (ix3 (0 : Fin 1) r d))
          + (∑ d : Fin 3, x1 (ix3 (0 : Fin 1) d mm) * x1 (ix3 (0 : Fin 1) d mm)))
        - two * (∑ d : Fin 3, x0 (ix3 (0 : Fin 1) r d) * x1 (ix3 (0 : Fin 1) d mm)) := by
  unfold k0_pay3
  dsimp only
  rw [subf_apply, addf_apply, mulf_apply, broadcast_apply, broadcastTo_a1_ab_apply, shapeCast_a_a1_apply,
    broadcastTo_1b_ab_apply, shapeCast_a_1a_apply]
  refine congrArg₂ (· - ·) (congrArg₂ (· + ·) ?_ ?_) (congrArg (two * ·) ?_)
  · refine (sum_S256x3_apply _ _ _ _ r).trans (Finset.sum_congr rfl fun d _ => ?_)
    rw [mulf_apply, shapeCast_1ab_ab_apply]
  · refine (sum_S3x8192_apply _ _ _ _ mm).trans (Finset.sum_congr rfl fun d _ => ?_)
    rw [mulf_apply, shapeCast_1ab_ab_apply]
  · refine (matmul_zero_apply _ _ r mm).trans (Finset.sum_congr rfl fun d _ => ?_)
    rw [truncf_apply, truncf_apply, shapeCast_1ab_ab_apply, shapeCast_1ab_ab_apply]

/-- The tile's column minimum at m: the infimum over the tile's 256 rows. -/
theorem pay4_apply (x0 : FVec Ideal S1x256x3 .f32) (x1 : FVec Ideal S1x3x8192 .f32) (u : Fin 1) (mm : Fin 8192) :
    k0_pay4 (F := Ideal) x0 x1 (ix2 u mm) = ⨅ r : Fin 256, k0_pay3 (F := Ideal) x0 x1 (ix2 r mm) := by
  unfold k0_pay4
  exact (shapeCast_a_1a_apply _ _ u mm).trans (min_rows_apply _ _ _ _ mm)

/-- Every entry of the updated accumulator block is its old entry plus the sum over the tile's rows of the row's
    infimum over the 8192 columns. -/
theorem pay7_apply (x0 : FVec Ideal S1x256x3 .f32) (x1 : FVec Ideal S1x3x8192 .f32) (v28 : FVec Ideal S1x8x128 .f32)
    (j : S1x8x128.Idx) :
    k0_pay7 (F := Ideal) x0 x1 v28 j
      = v28 j + ∑ r : Fin 256, ⨅ mm : Fin 8192, k0_pay3 (F := Ideal) x0 x1 (ix2 r mm) := by
  unfold k0_pay7
  dsimp only
  rw [addf_apply, shapeCast_self]
  refine congrArg (v28 j + ·) ?_
  refine (splat_1_apply _ _ _ _ _ j).trans ?_
  refine (sum_S256x1_apply _ _ _ _ 0).trans (Finset.sum_congr rfl fun r _ => ?_)
  exact (shapeCast_a_a1_apply _ _ r 0).trans (min_cols_apply _ _ _ _ r)

/-- The running minimum, entry by entry. -/
theorem pay1_apply (v24 : FVec Ideal S1x8192 .f32) (v35 : FVec Ideal S1x8192 .f32) (j : S1x8192.Idx) :
    k0_pay1 (F := Ideal) v24 v35 j = min (v35 j) (v24 j) := by
  unfold k0_pay1
  rw [shapeCast_self]
  rfl

/-- Every entry of the block stored at a batch's last tile is the sum of the 8192 running minima. -/
theorem pay2_apply (v43 : FVec Ideal S1x8192 .f32) (j : S1x8x128.Idx) :
    k0_pay2 (F := Ideal) v43 j = ∑ mm : Fin 8192, v43 (ix2 (0 : Fin 1) mm) := by
  unfold k0_pay2
  exact (splat_1_apply _ _ _ _ _ j).trans (sum_S1x8192_apply _ _ _ _ 0)

/-- The block the running sum restarts from is 0 everywhere. -/
theorem pay5_apply (j : S1x8x128.Idx) : (k0_pay5 (F := Ideal)) j = zero := by
  rfl

/-- The row the running minimum restarts from is +∞ everywhere. -/
theorem pay6_apply (j : S1x8192.Idx) : (k0_pay6 (F := Ideal)) j = pinf := by
  unfold k0_pay6
  rw [shapeCast_self]
  rfl

end Cert.KernelIdeal.Tile

end
-- ==== Proof.CasePieces.lean ====
/-
  What each of the body's three control cases leaves behind, as the body's own arithmetic. At the first tile of a
  batch the accumulator block is the zero block plus the tile's row-minimum sum, and the running-minimum row is the
  minimum of the +∞ row and the tile's column minima; at every later tile the same two updates are made over what
  the tile before left; at the last tile the block of the first output is, in addition, the sum of the updated
  running-minimum row. Each buffer ends covered by its last whole store, so what it holds is that store's value,
  and a value loaded after a whole store in the same run is the value stored.
-/
import proofs.«143020_j28200755266074_1_alg».proof.Proof.Gen.KernelIdeal.Frame
import Idealize.ShloMosaic.Lib.Pipeline.Value
import Idealize.ShloMosaic.Lib.Tactic

set_option maxRecDepth 16384

noncomputable section

namespace Cert.KernelIdeal.Cases

open Idealize.ShloMosaic Idealize.ShloMosaic.TcCoe Idealize.SL.Sem Idealize.ShloMosaic.Tactic
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## A later tile that is not the last -/

/-- The accumulator block: what the tile before left, plus this tile's sum of row minima. -/
theorem out_B_3 (c : Dev nD) (i : grid0.Coords) (arg2 : Memref sig .tc .vmem S1x256x3 .f32) (harg2 : arg2.IsWhole) (arg3 : Memref sig .tc .vmem S1x3x8192 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8192 .f32) (harg6 : arg6.IsWhole) (hc0 : ¬cond0_0 i) (hc1 : ¬cond0_1 i)
    (x0 : Vec F S1x256x3 .f32) (x1 : Vec F S1x3x8192 .f32) (xo3 : Vec F S1x8x128 .f32) (xs0 : Vec F S1x8192 .f32) :
    out0_B_3 c i arg2 harg2 arg3 harg3 arg4 harg4 arg5 harg5 arg6 harg6 hc0 hc1 x0 x1 xo3 xs0 = k0_pay7 x0 x1 xo3 := by
  unfold out0_B_3
  rw [View.read_writes_eq_canon _ _ _ (cover0_B_3 c i arg2 harg2 arg3 harg3 arg4 harg4 arg5 harg5 arg6 harg6 hc0 hc1 x0 x1 xo3 xs0)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S1x256x3) hz3, View.ld_unit_zero (S := S1x3x8192) hz3, View.ld_unit_zero (S := S1x8x128) hz3,
    View.ld_unit_zero (S := S1x8192) hz2]

/-- The running-minimum row: the minimum of what the tile before left and this tile's column minima. -/
theorem sout_B_0 (c : Dev nD) (i : grid0.Coords) (arg2 : Memref sig .tc .vmem S1x256x3 .f32) (harg2 : arg2.IsWhole) (arg3 : Memref sig .tc .vmem S1x3x8192 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8192 .f32) (harg6 : arg6.IsWhole) (hc0 : ¬cond0_0 i) (hc1 : ¬cond0_1 i)
    (x0 : Vec F S1x256x3 .f32) (x1 : Vec F S1x3x8192 .f32) (xo3 : Vec F S1x8x128 .f32) (xs0 : Vec F S1x8192 .f32) :
    sout0_B_0 c i arg2 harg2 arg3 harg3 arg4 harg4 arg5 harg5 arg6 harg6 hc0 hc1 x0 x1 xo3 xs0 = k0_pay1 (k0_pay4 x0 x1) xs0 := by
  unfold sout0_B_0
  rw [View.read_writes_eq_canon _ _ _ (scover0_B_0 c i arg2 harg2 arg3 harg3 arg4 harg4 arg5 harg5 arg6 harg6 hc0 hc1 x0 x1 xo3 xs0)]
  unfold kernelRun0_B
  dsimp only
  sl_unfold_words
  rw [View.canon_unit_zero hz2]
  simp only [View.readAt_eq_ld, harg2.read_unread, harg3.read_unread, harg4.read_unread, harg5.read_unread, harg6.read_unread,
    View.ld_unit_zero (S := S1x256x3) hz3, View.ld_unit_zero (S := S1x3x8192) hz3, View.ld_unit_zero (S := S1x8x128) hz3,
    View.ld_unit_zero (S := S1x8192) hz2]

/-! ## The last tile of a batch -/

/-- The accumulator block, as at any later tile. -/
theorem out_C_3 (c : Dev nD) (i : grid0.Coords) (arg2 : Memref sig .tc .vmem S1x256x3 .f32) (harg2 : arg2.IsWhole) (arg3 : Memref sig .tc .vmem S1x3x8192 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8192 .f32) (harg6 : arg6.IsWhole) (hc0 : ¬cond0_0 i) (hc1 : cond0_1 i)
    (x0 : Vec F S1x256x3 .f32) (x1 : Vec F S1x3x8192 .f32) (xo3 : Vec F S1x8x128 .f32) (xs0 : Vec F S1x8192 .f32) :
    out0_C_3 c i arg2 harg2 arg3 harg3 arg4 harg4 arg5 harg5 arg6 harg6 hc0 hc1 x0 x1 xo3 xs0 = k0_pay7 x0 x1 xo3 := by
  unfold out0_C_3
  rw [View.read_writes_eq_canon _ _ _ (cover0_C_3 c i arg2 harg2 arg3 harg3 arg4 harg4 arg5 harg5 arg6 harg6 hc0 hc1 x0 x1 xo3 xs0)]
  unfold kernelRun0_C
  dsimp only
  sl_unfold_words
  rw [View.canon_unit_zero hz3]
  simp only [View.readAt_eq_ld, harg2.read_unread, harg3.read_unread, harg4.read_unread, harg5.read_unread, harg6.read_unread,
    View.ld_unit_zero (S := S1x256x3) hz3, View.ld_unit_zero (S := S1x3x8192) hz3, View.ld_unit_zero (S := S1x8x128) hz3,
    View.ld_unit_zero (S := S1x8192) hz2]

/-- The running-minimum row, as at any later tile. -/
theorem sout_C_0 (c : Dev nD) (i : grid0.Coords) (arg2 : Memref sig .tc .vmem S1x256x3 .f32) (harg2 : arg2.IsWhole) (arg3 : Memref sig .tc .vmem S1x3x8192 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8192 .f32) (harg6 : arg6.IsWhole) (hc0 : ¬cond0_0 i) (hc1 : cond0_1 i)
    (x0 : Vec F S1x256x3 .f32) (x1 : Vec F S1x3x8192 .f32) (xo3 : Vec F S1x8x128 .f32) (xs0 : Vec F S1x8192 .f32) :
    sout0_C_0 c i arg2 harg2 arg3 harg3 arg4 harg4 arg5 harg5 arg6 harg6 hc0 hc1 x0 x1 xo3 xs0 = k0_pay1 (k0_pay4 x0 x1) xs0 := by
  unfold sout0_C_0
  rw [View.read_writes_eq_canon _ _ _ (scover0_C_0 c i arg2 harg2 arg3 harg3 arg4 harg4 arg5 harg5 arg6 harg6 hc0 hc1 x0 x1 xo3 xs0)]
  unfold kernelRun0_C
  dsimp only
  sl_unfold_words
  rw [View.canon_unit_zero hz2]
  simp only [View.readAt_eq_ld, harg2.read_unread, harg3.read_unread, harg4.read_unread, harg5.read_unread, harg6.read_unread,
    View.ld_unit_zero (S := S1x256x3) hz3, View.ld_unit_zero (S := S1x3x8192) hz3, View.ld_unit_zero (S := S1x8x128) hz3,
    View.ld_unit_zero (S := S1x8192) hz2]

/-- The first output's block: the sum of the running-minimum row as this tile has just updated it. -/
theorem out_C_2 (c : Dev nD) (i : grid0.Coords) (arg2 : Memref sig .tc .vmem S1x256x3 .f32) (harg2 : arg2.IsWhole) (arg3 : Memref sig .tc .vmem S1x3x8192 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8192 .f32) (harg6 : arg6.IsWhole) (hc0 : ¬cond0_0 i) (hc1 : cond0_1 i)
    (x0 : Vec F S1x256x3 .f32) (x1 : Vec F S1x3x8192 .f32) (xo3 : Vec F S1x8x128 .f32) (xs0 : Vec F S1x8192 .f32) :
    out0_C_2 c i arg2 harg2 arg3 harg3 arg4 harg4 arg5 harg5 arg6 harg6 hc0 hc1 x0 x1 xo3 xs0 = k0_pay2 (k0_pay1 (k0_pay4 x0 x1) xs0) := by
  unfold out0_C_2
  rw [View.read_writes_eq_canon _ _ _ (cover0_C_2 c i arg2 harg2 arg3 harg3 arg4 harg4 arg5 harg5 arg6 harg6 hc0 hc1 x0 x1 xo3 xs0)]
  unfold kernelRun0_C
  dsimp only
  sl_unfold_words
  rw [View.canon_unit_zero hz3]
  simp only [View.readCov_unit_zero (S := S1x8192) _ hz2, View.readAt_eq_ld, harg2.read_unread, harg3.read_unread, harg6.read_unread,
    View.ld_unit_zero (S := S1x256x3) hz3, View.ld_unit_zero (S := S1x3x8192) hz3, View.ld_unit_zero (S := S1x8192) hz2]

/-! ## The first tile of a batch -/

/-- The accumulator block restarts: the zero block plus this tile's sum of row minima. -/
theorem out_A_3 (c : Dev nD) (i : grid0.Coords) (arg2 : Memref sig .tc .vmem S1x256x3 .f32) (harg2 : arg2.IsWhole) (arg3 : Memref sig .tc .vmem S1x3x8192 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8192 .f32) (harg6 : arg6.IsWhole) (hc0 : cond0_0 i) (hc1 : ¬cond0_1 i)
    (x0 : Vec F S1x256x3 .f32) (x1 : Vec F S1x3x8192 .f32) :
    out0_A_3 c i arg2 harg2 arg3 harg3 arg4 harg4 arg5 harg5 arg6 harg6 hc0 hc1 x0 x1 = k0_pay7 x0 x1 (k0_pay5 (F := F)) := by
  unfold out0_A_3
  rw [View.read_writes_eq_canon _ _ _ (cover0_A_3 c i arg2 harg2 arg3 harg3 arg4 harg4 arg5 harg5 arg6 harg6 hc0 hc1 x0 x1)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread,
    View.ld_unit_zero (S := S1x256x3) hz3, View.ld_unit_zero (S := S1x3x8192) hz3]

/-- The running-minimum row restarts: the minimum of the +∞ row and this tile's column minima. -/
theorem sout_A_0 (c : Dev nD) (i : grid0.Coords) (arg2 : Memref sig .tc .vmem S1x256x3 .f32) (harg2 : arg2.IsWhole) (arg3 : Memref sig .tc .vmem S1x3x8192 .f32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8192 .f32) (harg6 : arg6.IsWhole) (hc0 : cond0_0 i) (hc1 : ¬cond0_1 i)
    (x0 : Vec F S1x256x3 .f32) (x1 : Vec F S1x3x8192 .f32) :
    sout0_A_0 c i arg2 harg2 arg3 harg3 arg4 harg4 arg5 harg5 arg6 harg6 hc0 hc1 x0 x1 = k0_pay1 (k0_pay4 x0 x1) (k0_pay6 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x8192) hz2, View.readCov_unit_zero (S := S1x8192) _ hz2]
  simp only [View.readAt_eq_ld, harg2.read_unread, harg3.read_unread,
    View.ld_unit_zero (S := S1x256x3) hz3, View.ld_unit_zero (S := S1x3x8192) hz3]

end Cert.KernelIdeal.Cases

end
-- ==== Proof.BlockReads.lean ====
/-
  Which entries of the two argument arrays a grid point sees. The grid walks 4 batches of 32 tiles in order, point
  t being tile t mod 32 of batch t / 32. The first window's block at t is the tile's 256 ground-truth points: entry
  (0, r, d) of the block is entry (t / 32, 256·(t mod 32) + r, d) of the ground-truth array. The second window's
  block is the batch's whole predicted cloud, transposed on the host before the call: entry (0, d, m) of the block
  is entry (t / 32, d, m) of the transposed array, which is entry (t / 32, m, d) of the predicted array.
-/
import proofs.«143020_j28200755266074_1_alg».proof.Proof.ChamferSpec
import proofs.«143020_j28200755266074_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

namespace Cert.KernelIdeal.Blocks

open Idealize.ShloMosaic Idealize.ShloMosaic.TcCoe Idealize.SL.Sem Idealize.ShloMosaic.ValueIdx
open Cert.KernelIdeal Cert.KernelIdeal.Gen Cert.Chamfer

variable {F : FTy → Type} [FloatOps F]
variable (m : (ℓ : Loc nD τ sig) → Buf (Elt F) ℓ)

/-- The first window's block index at point t: (batch, tile, 0). -/
theorem index0 : ∀ t : Fin cfg0.N, win0_0.index t 0 = t.val / 32 ∧ win0_0.index t 1 = t.val % 32 ∧ win0_0.index t 2 = 0 :=
  (by decide +kernel : ∀ t : Fin grid0.N, win0_0.index t 0 = t.val / 32 ∧ win0_0.index t 1 = t.val % 32 ∧ win0_0.index t 2 = 0)

/-- The second window's block index at point t: (batch, 0, 0). -/
theorem index1 : ∀ t : Fin cfg0.N, win0_1.index t 0 = t.val / 32 ∧ win0_1.index t 1 = 0 ∧ win0_1.index t 2 = 0 :=
  (by decide +kernel : ∀ t : Fin grid0.N, win0_1.index t 0 = t.val / 32 ∧ win0_1.index t 1 = 0 ∧ win0_1.index t 2 = 0)

/-- The array the second window stages is the predicted array with its last two axes swapped. -/
theorem V_main_v0 (c : Dev nD) :
    (V m c main_v0 : S4x3x8192.Idx → Elt F .f32)
      = transpose S4x3x8192 [0, 2, 1] (m ((c : Thread nD τ).loc main_arg0)) transposes_S4x8192x3_S4x3x8192_0_2_1 := by
  show StableHlo.after hostOps0 (fun b => m (c, b)) (Proc.devRef .tc main_v0) = _
  after_results

/-- Row r, coordinate d of the ground-truth tile at point t. -/
theorem gblk_apply (c : Dev nD) (t : Fin cfg0.N) (r : Fin 256) (d : Fin 3) :
    (iblk m c 0 t : Vec F S1x256x3 .f32) (ix3 (0 : Fin 1) r d)
      = m ((c : Thread nD τ).loc main_arg1) (ix3 (bOf t.val) (rowOf t.val r) d) := by
  have hN : t.val < 128 := lt_of_lt_of_eq t.isLt (show cfg0.N = 128 from N_0)
  obtain ⟨h0, h1, h2⟩ := index0 t
  unfold iblk
  rw [View.read_apply]
  refine (congrFun (V_main_arg1 m c) _).trans ?_
  congr 1
  funext a
  apply Fin.ext
  match a with
  | ⟨0, _⟩ => show win0_0.index t 0 * 1 + 1 * 0 = t.val / 32 % 4; rw [h0]; omega
  | ⟨1, _⟩ => show win0_0.index t 1 * 256 + 1 * r.val = 256 * (t.val % 32) + r.val; rw [h1]; omega
  | ⟨2, _⟩ => show win0_0.index t 2 * 3 + 1 * d.val = d.val; rw [h2]; omega

/-- Coordinate d of predicted point mm, as the block at point t holds it. -/
theorem pblk_apply (c : Dev nD) (t : Fin cfg0.N) (d : Fin 3) (mm : Fin 8192) :
    (iblk m c 1 t : Vec F S1x3x8192 .f32) (ix3 (0 : Fin 1) d mm)
      = m ((c : Thread nD τ).loc main_arg0) (ix3 (bOf t.val) mm d) := by
  have hN : t.val < 128 := lt_of_lt_of_eq t.isLt (show cfg0.N = 128 from N_0)
  obtain ⟨h0, h1, h2⟩ := index1 t
  unfold iblk
  rw [View.read_apply]
  refine (congrFun (V_main_v0 m c) _).trans ?_
  refine Eq.trans ?_ (transpose_ix3_021_apply (m ((c : Thread nD τ).loc main_arg0)) transposes_S4x8192x3_S4x3x8192_0_2_1 (bOf t.val) d mm)
  congr 1
  funext a
  apply Fin.ext
  match a with
  | ⟨0, _⟩ => show win0_1.index t 0 * 1 + 1 * 0 = t.val / 32 % 4; rw [h0]; omega
  | ⟨1, _⟩ => show win0_1.index t 1 * 3 + 1 * d.val = d.val; rw [h1]; omega
  | ⟨2, _⟩ => show win0_1.index t 2 * 8192 + 1 * mm.val = mm.val; rw [h2]; omega

end Cert.KernelIdeal.Blocks

end
-- ==== Proof.Accumulate.lean ====
/-
  What the kernel's carried buffers hold after each grid point, over the extended reals. Point t is tile t mod 32 of
  batch t / 32. Its tile of squared distances is `dist` of the launch memory's two point clouds at that batch and at
  the tile's 256 ground-truth points; so the accumulator block holds, in every entry, the running sum `accSum` of
  the tiles' row-minimum sums, the running-minimum row holds `accMin` entry by entry, and at a batch's last tile the
  first output's block holds, in every entry, the sum of that row. By induction on the point: the first tile of a
  batch restarts both, every later tile updates what the tile before left.
-/
import proofs.«143020_j28200755266074_1_alg».proof.Proof.ChamferSpec
import proofs.«143020_j28200755266074_1_alg».proof.Proof.TilePayload
import proofs.«143020_j28200755266074_1_alg».proof.Proof.CasePieces
import proofs.«143020_j28200755266074_1_alg».proof.Proof.BlockReads

noncomputable section

namespace Cert.KernelIdeal.Acc

open Idealize.ShloMosaic Idealize.ShloMosaic.TcCoe Idealize.SL.Sem Idealize.ShloMosaic.ValueIdx
open Cert.KernelIdeal Cert.KernelIdeal.Gen Cert.Chamfer
open Cert.KernelIdeal.Tile Cert.KernelIdeal.Cases Cert.KernelIdeal.Blocks

variable (m : (ℓ : Loc nD τ sig) → Buf (Elt Ideal) ℓ)

/-- The ground-truth points as the launch memory holds them (the program's second argument). -/
def gt (c : Dev nD) : Pts := fun b n d => m ((c : Thread nD τ).loc main_arg1) (ix3 b n d)
/-- The predicted points as the launch memory holds them (the program's first argument). -/
def pr (c : Dev nD) : Pts := fun b mm d => m ((c : Thread nD τ).loc main_arg0) (ix3 b mm d)

/-- The ground-truth tile at point t, at its literal type. -/
abbrev gblk (c : Dev nD) (t : Fin cfg0.N) : FVec Ideal S1x256x3 .f32 := iblk m c 0 t
/-- The predicted cloud's block at point t, at its literal type. -/
abbrev pblk (c : Dev nD) (t : Fin cfg0.N) : FVec Ideal S1x3x8192 .f32 := iblk m c 1 t

/-- The tile of distances at point t is `dist` at the point's batch and the tile's rows. -/
theorem tile_apply (c : Dev nD) (t : Fin cfg0.N) (r : Fin 256) (mm : Fin 8192) :
    k0_pay3 (F := Ideal) (gblk m c t) (pblk m c t) (ix2 r mm) = dist (gt m c) (pr m c) (bOf t.val) (rowOf t.val r) mm := by
  rw [pay3_apply]
  unfold Chamfer.dist gt pr
  simp only [gblk_apply m c t, pblk_apply m c t]

/-- The tile's sum of row minima is the spec's share of the tile. -/
theorem rowsum_eq (c : Dev nD) (t : Fin cfg0.N) :
    (∑ r : Fin 256, ⨅ mm : Fin 8192, k0_pay3 (F := Ideal) (gblk m c t) (pblk m c t) (ix2 r mm)) = rowPart (gt m c) (pr m c) t.val := by
  unfold rowPart
  simp only [tile_apply]

/-- The tile's column minimum is the spec's candidate of the tile. -/
theorem colmin_eq (c : Dev nD) (t : Fin cfg0.N) (mm : Fin 8192) :
    (⨅ r : Fin 256, k0_pay3 (F := Ideal) (gblk m c t) (pblk m c t) (ix2 r mm)) = colPart (gt m c) (pr m c) t.val mm := by
  unfold colPart
  simp only [tile_apply]

/-- The spec's accumulators, one step unfolded at any counter. -/
theorem accSum_step (g p : Pts) (n : ℕ) :
    accSum g p (n + 1) = if (n + 1) % 32 = 0 then zero + rowPart g p (n + 1) else accSum g p n + rowPart g p (n + 1) := rfl
theorem accMin_step (g p : Pts) (mm : Fin 8192) (n : ℕ) :
    accMin g p mm (n + 1) = if (n + 1) % 32 = 0 then min pinf (colPart g p (n + 1) mm) else min (accMin g p mm n) (colPart g p (n + 1) mm) := rfl

/-- After point n the accumulator block is the running sum in every entry and the running-minimum row is the
    running minimum entry by entry. -/
theorem outsAt_eq (c : Dev nD) : ∀ (n : ℕ) (h : n < cfg0.N),
    (∀ j : S1x8x128.Idx, (outsAt0 m c n h).2.1 j = accSum (gt m c) (pr m c) n)
    ∧ (∀ (u : Fin 1) (mm : Fin 8192), (outsAt0 m c n h).2.2 (ix2 u mm) = accMin (gt m c) (pr m c) mm n)
  | 0, h => by
    rw [outsAt0_A m c ⟨0, h⟩ rfl (by show ¬0 % 32 = 31; decide)]
    dsimp only
    refine ⟨fun j => ?_, fun u mm => ?_⟩
    · rw [out_A_3, pay7_apply, pay5_apply]
      exact congrArg (zero + ·) (rowsum_eq m c ⟨0, h⟩)
    · rw [sout_A_0, pay1_apply, pay6_apply, pay4_apply]
      exact congrArg (min pinf ·) (colmin_eq m c ⟨0, h⟩ mm)
  | n + 1, h => by
    have ih := outsAt_eq c n (Nat.lt_of_succ_lt h)
    by_cases h0 : (n + 1) % 32 = 0
    · have h1 : ¬(n + 1) % 32 = 31 := by omega
      rw [outsAt0_A m c ⟨n + 1, h⟩ h0 h1]
      dsimp only
      refine ⟨fun j => ?_, fun u mm => ?_⟩
      · rw [out_A_3, pay7_apply, pay5_apply, accSum_step, if_pos h0]
        exact congrArg (zero + ·) (rowsum_eq m c ⟨n + 1, h⟩)
      · rw [sout_A_0, pay1_apply, pay6_apply, pay4_apply, accMin_step, if_pos h0]
        exact congrArg (min pinf ·) (colmin_eq m c ⟨n + 1, h⟩ mm)
    · by_cases h1 : (n + 1) % 32 = 31
      · rw [outsAt0_C m c ⟨n + 1, h⟩ h0 h1]
        dsimp only
        refine ⟨fun j => ?_, fun u mm => ?_⟩
        · rw [out_C_3, pay7_apply, accSum_step, if_neg h0]
          exact congrArg₂ (· + ·) (ih.1 j) (rowsum_eq m c ⟨n + 1, h⟩)
        · rw [sout_C_0, pay1_apply, pay4_apply, accMin_step, if_neg h0]
          exact congrArg₂ min (ih.2 u mm) (colmin_eq m c ⟨n + 1, h⟩ mm)
      · rw [outsAt0_B m c ⟨n + 1, h⟩ h0 h1]
        dsimp only
        refine ⟨fun j => ?_, fun u mm => ?_⟩
        · rw [out_B_3, pay7_apply, accSum_step, if_neg h0]
          exact congrArg₂ (· + ·) (ih.1 j) (rowsum_eq m c ⟨n + 1, h⟩)
        · rw [sout_B_0, pay1_apply, pay4_apply, accMin_step, if_neg h0]
          exact congrArg₂ min (ih.2 u mm) (colmin_eq m c ⟨n + 1, h⟩ mm)

/-- At a batch's last tile the first output's block is, in every entry, the sum of the running-minimum row. -/
theorem outsAt_total (c : Dev nD) (n : ℕ) (h : n < cfg0.N) (h1 : n % 32 = 31) (j : S1x8x128.Idx) :
    (outsAt0 m c n h).1 j = ∑ mm : Fin 8192, accMin (gt m c) (pr m c) mm n := by
  have h0 : ¬n % 32 = 0 := by omega
  have e := (outsAt_eq m c n h).2
  rw [outsAt0_C m c ⟨n, h⟩ h0 h1] at e ⊢
  dsimp only at e ⊢
  rw [out_C_2, pay2_apply]
  refine Finset.sum_congr rfl fun mm _ => ?_
  rw [← sout_C_0]
  exact e 0 mm

end Cert.KernelIdeal.Acc

end
-- ==== Proof.OutputArrays.lean ====
/-
  The two arrays the kernel writes. Each is [4,8,128], one [1,8,128] block per batch, written back once, after the
  batch's last tile (point 32·b + 31). By then the first output's block holds in every entry the batch's sum, over
  the predicted points, of the distance to the nearest ground-truth point, and the second output's block the
  batch's sum, over the ground-truth points, of the distance to the nearest predicted point: the running minimum
  and the running sum of Accumulate.lean at their closed forms. Every array index (b, s, l) lies in the block of
  point 32·b + 31, so the arrays end as those two functions of the batch coordinate alone.
-/
import proofs.«143020_j28200755266074_1_alg».proof.Proof.ChamferTiles
import proofs.«143020_j28200755266074_1_alg».proof.Proof.Accumulate

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.Chamfer Cert.KernelIdeal.Acc

variable (m : (ℓ : Loc nD τ sig) → Buf (Elt Ideal) ℓ)

/-- The first output as a whole: entry (b, s, l) is batch b's sum over predicted points of the nearest
    ground-truth distance. -/
def gtArr (c : Dev nD) : S4x8x128.Idx → Elt Ideal .f32 :=
  fun i => ∑ mm : Fin 8192, ⨅ n : Fin 8192, dist (gt m c) (pr m c) ⟨(i 0).val, (i 0).isLt⟩ n mm
/-- The second output as a whole: entry (b, s, l) is batch b's sum over ground-truth points of the nearest
    predicted distance. -/
def predArr (c : Dev nD) : S4x8x128.Idx → Elt Ideal .f32 :=
  fun i => ∑ n : Fin 8192, ⨅ mm : Fin 8192, dist (gt m c) (pr m c) ⟨(i 0).val, (i 0).isLt⟩ n mm

/-- The output windows' block index at point t: (batch, 0, 0). -/
theorem index2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)
theorem index3 : ∀ t : Fin cfg0.N, win0_3.index t 0 = t.val / 32 ∧ win0_3.index t 1 = 0 ∧ win0_3.index t 2 = 0 :=
  (by decide +kernel : ∀ t : Fin grid0.N, win0_3.index t 0 = t.val / 32 ∧ win0_3.index t 1 = 0 ∧ win0_3.index t 2 = 0)

/-- An index of the array is in point t's block iff each coordinate is in the block's range on its axis. -/
theorem mem_blk2 (t : Fin cfg0.N) (i : S4x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v1_0).slice (win0_2.rect t)).set ↔ _
  rw [View.set_slice_whole, Rect.mem_set_unit]
  exact Iff.rfl
theorem mem_blk3 (t : Fin cfg0.N) (i : S4x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v1_1).slice (win0_3.rect t)).set ↔ _
  rw [View.set_slice_whole, Rect.mem_set_unit]
  exact Iff.rfl

/-- The last tile of batch b. -/
def lastOf (i : S4x8x128.Idx) : Fin cfg0.N :=
  ⟨32 * (i 0).val + 31, by rw [show cfg0.N = 128 from N_0]; have : (i 0).val < 4 := (i 0).isLt; omega⟩

/-- What a write-back of the second output writes is its block of `predArr`. -/
theorem flushed3_eq (c : Dev nD) (t : Fin cfg0.N) (hf : (cfg0.win 3).flush t = true) :
    (dats m 0 c).flushed 3 t = ((cfg0.win 3).blk t).view.read (Elt Ideal) (predArr m c) := by
  have hN : t.val < 128 := lt_of_lt_of_eq t.isLt (show cfg0.N = 128 from N_0)
  have h31 : t.val % 32 = 31 := (flush0_3 t).mp hf
  obtain ⟨e0, e1, e2⟩ := index3 t
  show (cfg0.win 3).cut (grid0.coords t) ((dats m 0 c).after 3 t) = _
  rw [after0_3]
  funext j
  show (outsAt0 m c t.val t.isLt).2.1 j = predArr m c (((cfg0.win 3).blk t).view.emb j)
  rw [(outsAt_eq m c t.val t.isLt).1 j]
  have hb : t.val / 32 < 4 := by omega
  have ht : t.val = 32 * (⟨t.val / 32, hb⟩ : Fin 4).val + 31 := by show t.val = 32 * (t.val / 32) + 31; omega
  rw [ht, accSum_last]
  unfold predArr
  have hj : (j 0).val < 1 := (j 0).isLt
  have hi : (⟨((((cfg0.win 3).blk t).view.emb j) 0).val, ((((cfg0.win 3).blk t).view.emb j) 0).isLt⟩ : Fin 4) = ⟨t.val / 32, hb⟩ :=
    Fin.ext (by show win0_3.index t 0 * 1 + 1 * (j 0).val = t.val / 32; rw [e0]; omega)
  rw [hi]

/-- What a write-back of the first output writes is its block of `gtArr`. -/
theorem flushed2_eq (c : Dev nD) (t : Fin cfg0.N) (hf : (cfg0.win 2).flush t = true) :
    (dats m 0 c).flushed 2 t = ((cfg0.win 2).blk t).view.read (Elt Ideal) (gtArr m c) := by
  have hN : t.val < 128 := lt_of_lt_of_eq t.isLt (show cfg0.N = 128 from N_0)
  have h31 : t.val % 32 = 31 := (flush0_2 t).mp hf
  obtain ⟨e0, e1, e2⟩ := index2 t
  show (cfg0.win 2).cut (grid0.coords t) ((dats m 0 c).after 2 t) = _
  rw [after0_2]
  funext j
  show (outsAt0 m c t.val t.isLt).1 j = gtArr m c (((cfg0.win 2).blk t).view.emb j)
  rw [outsAt_total m c t.val t.isLt h31 j]
  have hb : t.val / 32 < 4 := by omega
  have ht : t.val = 32 * (⟨t.val / 32, hb⟩ : Fin 4).val + 31 := by show t.val = 32 * (t.val / 32) + 31; omega
  unfold gtArr
  have hj : (j 0).val < 1 := (j 0).isLt
  have hi : (⟨((((cfg0.win 2).blk t).view.emb j) 0).val, ((((cfg0.win 2).blk t).view.emb j) 0).isLt⟩ : Fin 4) = ⟨t.val / 32, hb⟩ :=
    Fin.ext (by show win0_2.index t 0 * 1 + 1 * (j 0).val = t.val / 32; rw [e0]; omega)
  rw [hi]
  refine Finset.sum_congr rfl fun mm _ => ?_
  exact (congrArg (accMin (gt m c) (pr m c) mm) ht).trans (accMin_last (gt m c) (pr m c) mm ⟨t.val / 32, hb⟩)

/-- Every index of the second output lies in the block written back after its batch's last tile. -/
theorem cover3 (i : S4x8x128.Idx) : ∃ t : Fin cfg0.N, (cfg0.win 3).flush t = true ∧ i ∈ ((cfg0.win 3).blk t).view.set := by
  have hi0 : (i 0).val < 4 := (i 0).isLt
  have hi1 : (i 1).val < 8 := (i 1).isLt
  have hi2 : (i 2).val < 128 := (i 2).isLt
  obtain ⟨e0, e1, e2⟩ := index3 (lastOf i)
  have hv : (lastOf i).val = 32 * (i 0).val + 31 := rfl
  refine ⟨lastOf i, (flush0_3 _).mpr (by rw [hv]; omega), ?_⟩
  rw [mem_blk3]
  intro a
  match a with
  | ⟨0, _⟩ => show win0_3.index (lastOf i) 0 * 1 ≤ (i 0).val ∧ (i 0).val < win0_3.index (lastOf i) 0 * 1 + 1; rw [e0, hv]; omega
  | ⟨1, _⟩ => show win0_3.index (lastOf i) 1 * 8 ≤ (i 1).val ∧ (i 1).val < win0_3.index (lastOf i) 1 * 8 + 8; rw [e1]; omega
  | ⟨2, _⟩ => show win0_3.index (lastOf i) 2 * 128 ≤ (i 2).val ∧ (i 2).val < win0_3.index (lastOf i) 2 * 128 + 128; rw [e2]; omega

/-- The same for the first output. -/
theorem cover2 (i : S4x8x128.Idx) : ∃ t : Fin cfg0.N, (cfg0.win 2).flush t = true ∧ i ∈ ((cfg0.win 2).blk t).view.set := by
  have hi0 : (i 0).val < 4 := (i 0).isLt
  have hi1 : (i 1).val < 8 := (i 1).isLt
  have hi2 : (i 2).val < 128 := (i 2).isLt
  obtain ⟨e0, e1, e2⟩ := index2 (lastOf i)
  have hv : (lastOf i).val = 32 * (i 0).val + 31 := rfl
  refine ⟨lastOf i, (flush0_2 _).mpr (by rw [hv]; omega), ?_⟩
  rw [mem_blk2]
  intro a
  match a with
  | ⟨0, _⟩ => show win0_2.index (lastOf i) 0 * 1 ≤ (i 0).val ∧ (i 0).val < win0_2.index (lastOf i) 0 * 1 + 1; rw [e0, hv]; omega
  | ⟨1, _⟩ => show win0_2.index (lastOf i) 1 * 8 ≤ (i 1).val ∧ (i 1).val < win0_2.index (lastOf i) 1 * 8 + 8; rw [e1]; omega
  | ⟨2, _⟩ => show win0_2.index (lastOf i) 2 * 128 ≤ (i 2).val ∧ (i 2).val < win0_2.index (lastOf i) 2 * 128 + 128; rw [e2]; omega

/-- The first output ends as `gtArr`. -/
theorem final_gt (c : Dev nD) : (dats m 0 c).arrAt 2 cfg0.N = gtArr m c :=
  (dats m 0 c).arrAt_eq_of_cover 2 (gtArr m c) (flushed2_eq m c) cover2

/-- The second output ends as `predArr`. -/
theorem final_pred (c : Dev nD) : (dats m 0 c).arrAt 3 cfg0.N = predArr m c :=
  (dats m 0 c).arrAt_eq_of_cover 3 (predArr m c) (flushed3_eq m c) cover3

end Cert.KernelIdeal.Arrays

end
-- ==== Proof.HostTail.lean ====
/-
  The host operations after the kernel. Of each [4,8,128] output they take entry (q, 0, 0) for the four batches q,
  add the four from 0, and divide by 32768; the result is the sum of the two quotients. Stated for any contents the two
  output arrays end with, given those four entries of each.
-/
import proofs.«143020_j28200755266074_1_alg».proof.Proof.ChamferSpec
import proofs.«143020_j28200755266074_1_alg».proof.Proof.Gen.KernelIdeal.Frame
import Idealize.ShloMosaic.Lib.ValueIdx
import Idealize.ShloMosaic.Lib.ValueIdxRank1
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.Tactic

noncomputable section

namespace Cert.KernelIdeal.Tail

open Idealize.ShloMosaic Idealize.ShloMosaic.TcCoe Idealize.SL.Sem Idealize.ShloMosaic.ValueIdx
open Idealize.ShloMosaic.Pipeline (Dat)
open Cert.KernelIdeal Cert.KernelIdeal.Gen Cert.Chamfer

variable (m : (ℓ : Loc nD τ sig) → Buf (Elt Ideal) ℓ)

/-- The slice [0:4, 0:1, 0:1] reshaped to [4], read at `q`, is the array's entry (q, 0, 0). -/
private theorem slice_read (X : S4x8x128.Idx → Elt Ideal .f32) (q : Fin 4) :
    shapeCast S4 (extractStridedSlice S4x1x1 ![0, 0, 0] X slices_S4x8x128_S4x1x1_0_0_0) shapeCasts_S4x1x1_S4 (ix1 q)
      = X (ix3 q (0 : Fin 8) (0 : Fin 128)) := by
  refine (shapeCast_apply _ shapeCasts_S4x1x1_S4 (ix1 q) (ix3 q (0 : Fin 1) (0 : Fin 1)) ?_).trans ?_
  · rw [Shape.rowMajor_val_three, Shape.rowMajor_val_one]
    show ((q.val * 1 + 0) * 1 + 0) = q.val
    omega
  · refine extractStridedSlice_apply _ X _ _ (ix3 q (0 : Fin 8) (0 : Fin 128)) ?_
    intro d
    fin_cases d <;> simp

/-- The host's sum of a 4-vector from the constant 0 is the sum of its four entries. -/
private theorem reduce_read (y : (⟨S4, .f32⟩ : BufTy).Contents (Elt Ideal)) (i : S_.Idx) :
    Host.reduceAdd (F := Ideal) y (constant (F := Ideal) S_ .f32 0x00000000#32) reducesTo_S4_S_d0 h_S_ i
      = ∑ q : Fin 4, y (ix1 q) := by
  simp only [Host.reduceAdd, Ideal.hostReduceAdd_def]
  refine (Ideal.hostReduceAdd_total reducesTo_S4_S_d0 (fun b => b.elim0) y _ i).trans ?_
  rw [constant_apply, Ideal.ofBits_zero_f32, zero_add]
  exact (Equiv.sum_comp idxEquiv1.symm y).symm

/-- The program's result after the lines that follow the kernel: with the first output array ending as `A` and the
    second as `B`, whose entries (q, 0, 0) are `a q` and `b q`, it is (∑ a) / 32768 + (∑ b) / 32768. -/
theorem tail_value (c : Dev nD) (A B : S4x8x128.Idx → Elt Ideal .f32) (a b : Fin 4 → EReal)
    (hA : (dats m 0 c).arrAt 2 cfg0.N = A) (hB : (dats m 0 c).arrAt 3 cfg0.N = B)
    (ha : ∀ q : Fin 4, A (ix3 q (0 : Fin 8) (0 : Fin 128)) = a q) (hb : ∀ q : Fin 4, B (ix3 q (0 : Fin 8) (0 : Fin 128)) = b q) :
    Pipeline.afterTail₀ cfgs (dats m) 0 (V0 m) [hostOps1] c main_v10
      = fun _ => FloatOps.addf (F := Ideal) (φ := .f32)
          (FloatOps.hostDivf (F := Ideal) (φ := .f32) (∑ q : Fin 4, a q) cnt)
          (FloatOps.hostDivf (F := Ideal) (φ := .f32) (∑ q : Fin 4, b q) cnt) := by
  unfold Pipeline.afterTail₀
  show StableHlo.after hostOps1 _ (Proc.devRef .tc main_v10) = _
  after_results
  have e2 : Pipeline.withArrays (cfgs 0).spec c (V0 m c) (fun w => (dats m 0 c).arrAt w (cfgs 0).N) (Proc.devRef .tc main_v1_0) = A :=
    (Pipeline.withArrays_arr spec0 launch0.win.arr_inj c _ _ 2).trans hA
  have e3 : Pipeline.withArrays (cfgs 0).spec c (V0 m c) (fun w => (dats m 0 c).arrAt w (cfgs 0).N) (Proc.devRef .tc main_v1_1) = B :=
    (Pipeline.withArrays_arr spec0 launch0.win.arr_inj c _ _ 3).trans hB
  rw [e2, e3]
  funext i
  show FloatOps.addf (F := Ideal) (φ := .f32)
      (FloatOps.hostDivf (F := Ideal) (φ := .f32)
        (Host.reduceAdd (F := Ideal) (fun j => shapeCast S4 (extractStridedSlice S4x1x1 ![0, 0, 0] A slices_S4x8x128_S4x1x1_0_0_0) shapeCasts_S4x1x1_S4 j)
          (constant (F := Ideal) S_ .f32 0x00000000#32) reducesTo_S4_S_d0 h_S_ i) cnt)
      (FloatOps.hostDivf (F := Ideal) (φ := .f32)
        (Host.reduceAdd (F := Ideal) (fun j => shapeCast S4 (extractStridedSlice S4x1x1 ![0, 0, 0] B slices_S4x8x128_S4x1x1_0_0_0) shapeCasts_S4x1x1_S4 j)
          (constant (F := Ideal) S_ .f32 0x00000000#32) reducesTo_S4_S_d0 h_S_ i) cnt) = _
  rw [reduce_read, reduce_read,
    Finset.sum_congr rfl (fun q _ => (slice_read A q).trans (ha q)),
    Finset.sum_congr rfl (fun q _ => (slice_read B q).trans (hb q))]

end Cert.KernelIdeal.Tail

end
-- ==== Proof.KernelRun.lean ====
/-
  The idealized kernel program's run, read: its result is the Chamfer loss of the launch memory's two point
  clouds. The two output arrays of the kernel end as the per-batch sums of nearest distances (OutputArrays.lean);
  the host lines after the kernel add each array's four batch entries, divide by 32768 and add the two quotients
  (HostTail.lean); and the four batch sums of each kind are the spec's double sums.
-/
import proofs.«143020_j28200755266074_1_alg».proof.Proof.OutputArrays
import proofs.«143020_j28200755266074_1_alg».proof.Proof.HostTail

noncomputable section

namespace Cert.KernelIdeal.KernelRun

open Idealize.ShloMosaic Idealize.ShloMosaic.TcCoe Idealize.SL.Sem Idealize.ShloMosaic.ValueIdx
open Idealize.ShloMosaic.Pipeline (Dat)
open Cert.KernelIdeal Cert.KernelIdeal.Gen Cert.Chamfer Cert.KernelIdeal.Acc Cert.KernelIdeal.Arrays

variable (m : (ℓ : Loc nD τ sig) → Buf (Elt Ideal) ℓ) (ρ : Dev nD → PrngReg)

/-- The result buffer after the host lines that follow the kernel: the loss, at its one index. -/
theorem result_eq (c : Dev nD) :
    Pipeline.afterTail₀ cfgs (dats m) 0 (V0 m) [hostOps1] c main_v10 = fun _ => loss (gt m c) (pr m c) :=
  Cert.KernelIdeal.Tail.tail_value m c (gtArr m c) (predArr m c)
    (fun q => ∑ mm : Fin 8192, ⨅ n : Fin 8192, Chamfer.dist (gt m c) (pr m c) q n mm)
    (fun q => ∑ n : Fin 8192, ⨅ mm : Fin 8192, Chamfer.dist (gt m c) (pr m c) q n mm)
    (final_gt m c) (final_pred m c) (fun _ => rfl) (fun _ => rfl)

/-- Every weakly fair execution of the idealized kernel program terminates with the result buffer at the
    Chamfer loss of the launch memory's point clouds, and the two arguments unchanged. -/
theorem run : θ_run defs (onTc (τ := τ) (main (F := Ideal))) ⟨m, fun _ => 0, ρ⟩ fun r => ∀ c : Dev nD,
      r.2.mem ((c.tc : Thread nD τ).loc main_v10) = (fun _ => loss (gt m c) (pr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v10 (Pipeline.mem_restRefs_of main_v10 (by decide) (by decide))).trans (result_eq m c),
       ((h c).2 main_arg0 (Pipeline.mem_restRefs_of main_arg0 (by decide) (by decide))).trans (W_main_arg0 m (dats m) c),
       ((h c).1 0).trans (((dats m 0 c).arrAt_in 0 rfl _).trans ((A_eq m c 0).trans (V_main_arg1 m c)))⟩)
    (run_main m ρ)

end Cert.KernelIdeal.KernelRun

end
-- ==== Proof.RefValue.lean ====
/-
  The jnp reference, read at the extended reals, is the Chamfer loss of ChamferSpec.lean: its [4,8192,8192] array of
  expanded squared distances is `dist` entry by entry (the row norms, the column norms and the batched inner
  product each a sum over the three coordinates), its two minimum-reductions from +∞ are the infima over the
  ground-truth and over the predicted points, each total sum from 0 is the double sum over batch and point, and
  the two quotients by 32768 and their sum are `loss`'s own.
-/
import proofs.«143020_j28200755266074_1_alg».proof.Proof.ChamferSpec
import proofs.«143020_j28200755266074_1_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Chamfer

/-- The row-norm stage reads ground-truth point (b, n), coordinate k. -/
private theorem idx_rowNorm (b : Fin 4) (n mm : Fin 8192) (k : Fin 3) :
    idx_main_v1 (idx_main_v5 (idx_main_v7 (ix3 b n mm))) k = ix3 b n k :=
  funext fun a => Fin.ext (by match a with | ⟨0, _⟩ => rfl | ⟨1, _⟩ => rfl | ⟨2, _⟩ => rfl)

/-- The column-norm stage reads predicted point (b, mm), coordinate k. -/
private theorem idx_colNorm (b : Fin 4) (n mm : Fin 8192) (k : Fin 3) :
    idx_main_v3 (idx_main_v6 (idx_main_v8 (ix3 b n mm))) k = ix3 b mm k :=
  funext fun a => Fin.ext (by match a with | ⟨0, _⟩ => rfl | ⟨1, _⟩ => rfl | ⟨2, _⟩ => rfl)

/-- The inner product's left factor is ground-truth point (b, n), coordinate k. -/
private theorem idx_dotLeft (b : Fin 4) (n mm : Fin 8192) (k : Fin 3) :
    lidx_main_v4 (ix3 b n mm) k = ix3 b n k :=
  funext fun a => Fin.ext (by match a with | ⟨0, _⟩ => rfl | ⟨1, _⟩ => rfl | ⟨2, _⟩ => rfl)

/-- The inner product's right factor is predicted point (b, mm), coordinate k. -/
private theorem idx_dotRight (b : Fin 4) (n mm : Fin 8192) (k : Fin 3) :
    ridx_main_v4 (ix3 b n mm) k = ix3 b mm k :=
  funext fun a => Fin.ext (by match a with | ⟨0, _⟩ => rfl | ⟨1, _⟩ => rfl | ⟨2, _⟩ => rfl)

/-- Entry (b, n, mm) of the [4,8192,8192] array is the expanded squared distance between ground-truth point n and
    predicted point mm of batch b: each norm is 0 plus a sum over the three coordinates, the inner product a sum
    over the three coordinates, doubled by the literal 2. -/
theorem dist_eq (x0 x1 : (⟨S4x8192x3, .f32⟩ : BufTy).Contents (Elt Ideal)) (b : Fin 4) (n mm : Fin 8192) :
    val_main_v12 (F := Ideal) x0 x1 (ix3 b n mm)
      = dist (fun b n d => x1 (ix3 b n d)) (fun b mm d => x0 (ix3 b mm d)) b n mm := by
  rw [val_main_v12_apply, val_main_v9_apply, val_main_v11_apply, val_main_v7_apply, val_main_v5_apply,
    val_main_v8_apply, val_main_v6_apply, val_main_v1_apply, val_main_v3_apply, val_main_v10_apply,
    val_main_cst_1_apply, val_main_v4_apply]
  simp only [val_main_v0_apply, val_main_v2_apply, val_main_cst_apply, val_main_cst_0_apply, idx_rowNorm,
    idx_colNorm, idx_dotLeft, idx_dotRight]
  show ((Ideal.ofBits .f32 0x00000000#32 + ∑ k, x1 (ix3 b n k) * x1 (ix3 b n k))
      + (Ideal.ofBits .f32 0x00000000#32 + ∑ k, x0 (ix3 b mm k) * x0 (ix3 b mm k)))
      - Ideal.ofBits .f32 0x40000000#32 * (∑ k, x1 (ix3 b n k) * x0 (ix3 b mm k)) = _
  rw [Ideal.ofBits_zero_f32, zero_add, zero_add]
  rfl

/-- The minimum from +∞ over axis 1, at (b, mm): the infimum over the ground-truth points n of the distance to
    predicted point mm. The source index over (b, mm) with n inserted on axis 1 is (b, n, mm). -/
private theorem minOverGt_eq (x0 x1 : (⟨S4x8192x3, .f32⟩ : BufTy).Contents (Elt Ideal)) (b : Fin 4) (mm : Fin 8192) :
    val_main_v13 (F := Ideal) x0 x1 (ix2 b mm)
      = ⨅ n : Fin 8192, dist (fun b n d => x1 (ix3 b n d)) (fun b mm d => x0 (ix3 b mm d)) b n mm := by
  unfold val_main_v13
  have hd : ∀ n : Fin 8192, val_main_v12 (F := Ideal) x0 x1 (ix3 b n mm)
      = dist (fun b n d => x1 (ix3 b n d)) (fun b mm d => x0 (ix3 b mm d)) b n mm := fun n => dist_eq x0 x1 b n mm
  generalize val_main_v12 (F := Ideal) x0 x1 = y at hd ⊢
  refine (Host.reduce_eq_fold_single (α := Ideal .f32) (FloatOps.minimumf (F := Ideal) (φ := .f32)) y _
    reducesTo_S4x8192x8192_S4x8192_d1 (by decide) h_S_ (ix2 b mm)).trans ?_
  rw [← fold_min_pinf]
  refine Finset.fold_congr fun n _ => ?_
  show y _ = _
  rw [← hd n]
  exact congrArg y (funext fun a => Fin.ext (by match a with | ⟨0, _⟩ => rfl | ⟨1, _⟩ => rfl | ⟨2, _⟩ => rfl))

/-- The minimum from +∞ over axis 2, at (b, n): the infimum over the predicted points mm of the distance to
    ground-truth point n. The source index over (b, n) with mm inserted on axis 2 is (b, n, mm). -/
private theorem minOverPred_eq (x0 x1 : (⟨S4x8192x3, .f32⟩ : BufTy).Contents (Elt Ideal)) (b : Fin 4) (n : Fin 8192) :
    val_main_v16 (F := Ideal) x0 x1 (ix2 b n)
      = ⨅ mm : Fin 8192, dist (fun b n d => x1 (ix3 b n d)) (fun b mm d => x0 (ix3 b mm d)) b n mm := by
  unfold val_main_v16
  have hd : ∀ mm : Fin 8192, val_main_v12 (F := Ideal) x0 x1 (ix3 b n mm)
      = dist (fun b n d => x1 (ix3 b n d)) (fun b mm d => x0 (ix3 b mm d)) b n mm := fun mm => dist_eq x0 x1 b n mm
  generalize val_main_v12 (F := Ideal) x0 x1 = y at hd ⊢
  refine (Host.reduce_eq_fold_single (α := Ideal .f32) (FloatOps.minimumf (F := Ideal) (φ := .f32)) y _
    reducesTo_S4x8192x8192_S4x8192_d2 (by decide) h_S_ (ix2 b n)).trans ?_
  rw [← fold_min_pinf]
  refine Finset.fold_congr fun mm _ => ?_
  show y _ = _
  rw [← hd mm]
  exact congrArg y (funext fun a => Fin.ext (by match a with | ⟨0, _⟩ => rfl | ⟨1, _⟩ => rfl | ⟨2, _⟩ => rfl))

/-- The total sum from 0 of the minima over the ground-truth axis is `toGt`: the double sum over batch and
    predicted point. -/
private theorem sumToGt_eq (x0 x1 : (⟨S4x8192x3, .f32⟩ : BufTy).Contents (Elt Ideal)) (i : S_.Idx) :
    val_main_v14 (F := Ideal) x0 x1 i
      = toGt (fun b n d => x1 (ix3 b n d)) (fun b mm d => x0 (ix3 b mm d)) := by
  rw [val_main_v14_apply, val_main_cst_3_apply]
  show Ideal.ofBits .f32 0x00000000#32 + _ = _
  rw [Ideal.ofBits_zero_f32, zero_add]
  refine (sum_idx2 _).trans ?_
  unfold toGt
  exact Finset.sum_congr rfl fun b _ => Finset.sum_congr rfl fun mm _ => minOverGt_eq x0 x1 b mm

/-- The total sum from 0 of the minima over the predicted axis is `toPred`: the double sum over batch and
    ground-truth point. -/
private theorem sumToPred_eq (x0 x1 : (⟨S4x8192x3, .f32⟩ : BufTy).Contents (Elt Ideal)) (i : S_.Idx) :
    val_main_v17 (F := Ideal) x0 x1 i
      = toPred (fun b n d => x1 (ix3 b n d)) (fun b mm d => x0 (ix3 b mm d)) := by
  rw [val_main_v17_apply, val_main_cst_6_apply]
  show Ideal.ofBits .f32 0x00000000#32 + _ = _
  rw [Ideal.ofBits_zero_f32, zero_add]
  refine (sum_idx2 _).trans ?_
  unfold toPred
  exact Finset.sum_congr rfl fun b _ => Finset.sum_congr rfl fun n _ => minOverPred_eq x0 x1 b n

/-- The reference's result, a rank-0 array, holds the Chamfer loss of its second argument (the ground-truth
    points, `x1`) against its first (the predicted points, `x0`). -/
theorem ref_value (x0 x1 : (⟨S4x8192x3, .f32⟩ : BufTy).Contents (Elt Ideal)) :
    val_main_v19 (F := Ideal) x0 x1
      = fun _ => loss (fun b n d => x1 (ix3 b n d)) (fun b mm d => x0 (ix3 b mm d)) := by
  funext i
  rw [val_main_v19_apply, val_main_v15_apply, val_main_v18_apply, sumToGt_eq, sumToPred_eq, val_main_cst_4_apply,
    val_main_cst_7_apply]
  rfl

end Cert.ReferenceIdeal.RefValue

end
-- ==== Proof.lean ====
/-
  The certificate of a Chamfer-loss kernel against its jnp reference, over the extended reals.

  The kernel walks, for each of 4 batches, 32 tiles of 256 ground-truth points against the batch's whole cloud of 8192
  predicted points. Per tile it forms the 256 × 8192 squared distances |g|² + |p|² − 2⟨g, p⟩, adds the tile's sum of
  row minima into a running sum, and folds the tile's column minima into a running minimum; after a batch's last
  tile it sums the running minima. The host then adds the four batch sums of each kind, divides by 32768 and adds the
  two quotients. The reference forms the whole [4, 8192, 8192] array of the same expression, takes its minima along
  either point axis, sums and divides the same way. On the extended reals a sum over 8192 points is the sum over 32
  tiles of 256, an infimum likewise, and a minimum folded from +∞ is the infimum: the two programs compute one number.

  The frames of the kernel programs are the generated ones; the reference's is its generated run with the result
  dropped; the idealization rewrote no operation.
-/
import proofs.«143020_j28200755266074_1_alg».proof.Defs
import proofs.«143020_j28200755266074_1_alg».proof.Proof.Gen.Kernel
import proofs.«143020_j28200755266074_1_alg».proof.Proof.Gen.Kernel.Frame
import proofs.«143020_j28200755266074_1_alg».proof.Proof.Gen.KernelIdeal
import proofs.«143020_j28200755266074_1_alg».proof.Proof.Gen.KernelIdeal.Frame
import proofs.«143020_j28200755266074_1_alg».proof.Proof.Gen.ReferenceIdeal
import proofs.«143020_j28200755266074_1_alg».proof.Proof.Gen.ReferenceIdeal.Run
import proofs.«143020_j28200755266074_1_alg».proof.Proof.Gen.ReferenceIdeal.Read
import proofs.«143020_j28200755266074_1_alg».proof.Proof.Gen.Pre_finite_inputs
import proofs.«143020_j28200755266074_1_alg».proof.Proof.KernelRun
import proofs.«143020_j28200755266074_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the Chamfer loss of the same two point clouds: the kernel's by its run read
    through its accumulators, the reference's by its run read stage by stage, the arguments agreeing. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun _ => Cert.Chamfer.loss (Cert.KernelIdeal.Acc.gt m c) (Cert.KernelIdeal.Acc.pr m c)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.ref_value, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
